-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_arg4 : FVec F S11008x16 .f32) (main_arg5 : FVec F S11008 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S11008x16 .f32 := Host.absf main_arg4
  let main_cst_6 : FVec F S_ .f32 := constant S_ .f32 0x7F800000#32
  let main_v20 : FVec F S11008x16 .f32 := broadcastInDim S11008x16 ![] bcast_S_S11008x16 main_cst_6
  let main_v21 : IVec S11008x16 1 := cmpf .olt main_v19 main_v20
  let main_c_7 : IVec S_ 1 := constantI S_ 1 1#1
  let main_v22 : IVec S_ 1 := (fun x v => Host.reduce IntOp.andi x v reducesTo_S11008x16_S_d0_1 h_S_) main_v21 main_c_7
  let main_v23 : IVec S_ 1 := andi main_v18 main_v22
  let main_v24 : FVec F S11008 .f32 := Host.absf main_arg5
  let main_cst_8 : FVec F S_ .f32 := constant S_ .f32 0x7F800000#32
  let main_v25 : FVec F S11008 .f32 := broadcastInDim S11008 ![] bcast_S_S11008 main_cst_8
  let main_v26 : IVec S11008 1 := cmpf .olt main_v24 main_v25
  let main_c_9 : IVec S_ 1 := constantI S_ 1 1#1
  let main_v27 : IVec S_ 1 := (fun x v => Host.reduce IntOp.andi x v reducesTo_S11008_S_d0 h_S_) main_v26 main_c_9
  let main_v28 : IVec S_ 1 := andi main_v23 main_v27
  main_v28

def fn {F : FTy → Type} [FloatOps F] (main_arg0 : FVec F S64x4096 .f32) (main_arg1 : FVec F S11008x4096 .f32) (main_arg2 : FVec F S11008 .f32) (main_arg3 : FVec F S16x4096 .f32) (main_arg4 : FVec F S11008x16 .f32) (main_arg5 : FVec F S11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_arg5 main_v13 main_v16
-- ==== Kernel.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S11008x1 : Shape := ⟨2, ![11008, 1]⟩
abbrev S64x11008 : Shape := ⟨2, ![64, 11008]⟩
abbrev S256x4096 : Shape := ⟨2, ![256, 4096]⟩
abbrev S256x1 : Shape := ⟨2, ![256, 1]⟩
abbrev S256x16 : Shape := ⟨2, ![256, 16]⟩
abbrev S64x256 : Shape := ⟨2, ![64, 256]⟩
abbrev S4096x256 : Shape := ⟨2, ![4096, 256]⟩
abbrev S1x256 : Shape := ⟨2, ![1, 256]⟩

abbrev nBuf : Space → Nat
  | .hbm => 9
  | .vmem => 12
  | .smem => 0
  | _ => 0

abbrev bufTy : (tb : Table) → Fin (tcTables nBuf tb) → BufTy
  | .hbm, ⟨0, _⟩ => ⟨S64x4096, .f32⟩
  | .hbm, ⟨1, _⟩ => ⟨S11008x4096, .f32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008, .f32⟩
  | .hbm, ⟨6, _⟩ => ⟨S11008x1, .f32⟩
  | .hbm, ⟨7, _⟩ => ⟨S11008x1, .f32⟩
  | .hbm, ⟨8, _⟩ => ⟨S64x11008, .f32⟩
  | .local _ .vmem, ⟨0, _⟩ => ⟨S64x4096, .f32⟩
  | .local _ .vmem, ⟨1, _⟩ => ⟨S256x4096, .f32⟩
  | .local _ .vmem, ⟨2, _⟩ => ⟨S256x4096, .f32⟩
  | .local _ .vmem, ⟨3, _⟩ => ⟨S256x1, .f32⟩
  | .local _ .vmem, ⟨4, _⟩ => ⟨S256x1, .f32⟩
  | .local _ .vmem, ⟨5, _⟩ => ⟨S16x4096, .f32⟩
  | .local _ .vmem, ⟨6, _⟩ => ⟨S256x16, .f32⟩
  | .local _ .vmem, ⟨7, _⟩ => ⟨S256x16, .f32⟩
  | .local _ .vmem, ⟨8, _⟩ => ⟨S256x1, .f32⟩
  | .local _ .vmem, ⟨9, _⟩ => ⟨S256x1, .f32⟩
  | .local _ .vmem, ⟨10, _⟩ => ⟨S64x256, .f32⟩
  | .local _ .vmem, ⟨11, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S11008_S11008x1 : S11008.ShapeCasts S11008x1
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S256x16_S256x16_0_0 : ∀ a, (![0, 0] : Fin 2 → Nat) a + S256x16.size a ≤ S256x16.size a
  h_S256x16 : 0 < S256x16.numel
  inb_S16x4096_S16x4096_0_0 : ∀ a, (![0, 0] : Fin 2 → Nat) a + S16x4096.size a ≤ S16x4096.size a
  h_S16x4096 : 0 < S16x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  transposes_S256x4096_p1_0_S4096x256 : S256x4096.Transposes [1, 0] S4096x256
  transposes_S256x1_p1_0_S1x256 : S256x1.Transposes [1, 0] S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S256x16_S16x4096_S256x4096_1_0_0_1_n_n_wf : DotDims.WF S256x16 S16x4096 S256x4096 [1] [0] [0] [1] [] []
  dot_S64x4096_S4096x256_S64x256_1_0_0_1_n_n_wf : DotDims.WF S64x4096 S4096x256 S64x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .f32 = 32 ∨ (Rect.block (s := S11008x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S11008x16.size a
  hwx0_4 : ∀ i : grid0.Coords, EltTy.bits .f32 = 32 ∨ (Rect.block (s := S11008x16) S256x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S11008x1.size a
  hwx0_5 : ∀ i : grid0.Coords, EltTy.bits .f32 = 32 ∨ (Rect.block (s := S11008x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x11008.size a
  hwx0_6 : ∀ i : grid0.Coords, EltTy.bits .f32 = 32 ∨ (Rect.block (s := S64x11008) S64x256.size (cc0_transform_6 i) (hinb0_6 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S64x4096_S4096x256_S64x256_1_0_0_1_n_n : DotDims S64x4096 S4096x256 S64x256 where
  lhsContracting := [1]
  rhsContracting := [0]
  lhsNonContracting := [0]
  rhsNonContracting := [1]
  lhsBatch := []
  rhsBatch := []
  wf := dot_S64x4096_S4096x256_S64x256_1_0_0_1_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S11008x1 : Shape := ⟨2, ![11008, 1]⟩
abbrev S_ : Shape := ⟨0, ![]⟩
abbrev S4096x11008 : Shape := ⟨2, ![4096, 11008]⟩
abbrev S64x11008 : Shape := ⟨2, ![64, 11008]⟩
abbrev S1x11008 : Shape := ⟨2, ![1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x4096, .f32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S11008x4096, .f32⟩
  | .hbm, ⟨10, _⟩ => ⟨S_, .f32⟩
  | .hbm, ⟨11, _⟩ => ⟨S11008x4096, .f32⟩
  | .hbm, ⟨12, _⟩ => ⟨S11008x4096, .f32⟩
  | .hbm, ⟨13, _⟩ => ⟨S11008x4096, .f32⟩
  | .hbm, ⟨14, _⟩ => ⟨S4096x11008, .f32⟩
  | .hbm, ⟨15, _⟩ => ⟨S64x11008, .f32⟩
  | .hbm, ⟨16, _⟩ => ⟨S1x11008, .f32⟩
  | .hbm, ⟨17, _⟩ => ⟨S64x11008, .f32⟩
  | .hbm, ⟨18, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S11008x4096 : S_.BroadcastsInDim S11008x4096 (![] : Fin 0 → Fin S11008x4096.rank)
  transposes_S11008x4096_S4096x11008_1_0 : S11008x4096.Transposes [1, 0] S4096x11008
  bcast_S11008_S1x11008_1 : S11008.BroadcastsInDim S1x11008 (![1] : Fin 1 → Fin S1x11008.rank)
  bcast_S1x11008_S64x11008_0_1 : S1x11008.BroadcastsInDim S64x11008 (![0, 1] : Fin 2 → Fin S64x11008.rank)
  dot_S11008x16_S16x4096_S11008x4096_1_0_0_1_n_n_wf : DotDims.WF S11008x16 S16x4096 S11008x4096 [1] [0] [0] [1] [] []
  dot_S64x4096_S4096x11008_S64x11008_1_0_0_1_n_n_wf : DotDims.WF S64x4096 S4096x11008 S64x11008 [1] [0] [0] [1] [] []

variable [Facts₀]

def dot_S11008x16_S16x4096_S11008x4096_1_0_0_1_n_n : DotDims S11008x16 S16x4096 S11008x4096 where
  lhsContracting := [1]
  rhsContracting := [0]
  lhsNonContracting := [0]
  rhsNonContracting := [1]
  lhsBatch := []
  rhsBatch := []
  wf := dot_S11008x16_S16x4096_S11008x4096_1_0_0_1_n_n_wf
def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.BlockReads.lean ====
/-
  Each operand block of a grid step, read as entries of the argument arrays.

  The grid has 43 steps; step t owns output channels 256 t … 256 t + 255. At step t the body is handed
  the whole of x and of the low-rank factor A (their block index is (0, 0) at every step), rows 256 t … 256 t + 255 of
  the stored weight W and of the low-rank factor B, and the same rows of two one-column arrays: the scale s and the bias b
  laid out as [11008, 1] before the steps begin. A [11008] array and its [11008, 1] layout hold the same entries in the
  same row-major order, so entry (n, 0) of the column is entry n of the vector. The block of the result that step t writes
  back is columns 256 t … 256 t + 255 of all 64 rows.
  An entry of a block sits in its array, on each axis, at the block's index times the block's extent plus the entry's own
  coordinate; with the block indices above that is the arithmetic below.
-/
import proofs.«150918_j74388833567052_1_alg».proof.Proof.Gen.KernelIdeal.Frame
import Idealize.ShloMosaic.Lib.StableHlo.Run
import Idealize.ShloMosaic.Lib.Pipeline.Value
import Idealize.ShloMosaic.Lib.ValueIdx

noncomputable section

namespace Cert.QLinear.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The two one-column arrays laid out before the steps -/

/-- The scale column the steps read is the scale vector recast to [11008, 1]. -/
theorem scaleColumn_eq (c : Dev nD) : (V m c main_v0 : S11008x1.Idx → EReal)
    = shapeCast S11008x1 (m ((c : Thread nD τ).loc main_arg2)) shapeCasts_S11008_S11008x1 := by
  dsimp only [Gen.V, Gen.hostOps0]
  after_results
  rfl

/-- The bias column the steps read is the bias vector recast to [11008, 1]. -/
theorem biasColumn_eq (c : Dev nD) : (V m c main_v1 : S11008x1.Idx → EReal)
    = shapeCast S11008x1 (m ((c : Thread nD τ).loc main_arg5)) shapeCasts_S11008_S11008x1 := by
  dsimp only [Gen.V, Gen.hostOps0]
  after_results
  rfl

/-! ## The block indices, step by step -/

/-- At step t: x and A stay at block (0, 0); W, the scale column, B and the bias column move down to block row t; the
    result moves right to block column t. -/
theorem blockIndex : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val :=
  (by decide +kernel : ∀ t : Fin grid0.N, _)

/-- A channel of step t's group is a channel of the layer: 256 t + q < 11008 for t < 43, q < 256. -/
theorem channel_lt (t : Fin cfg0.N) (q : Fin 256) : 256 * t.val + q.val < 11008 := by
  have h1 := t.isLt
  have h2 : cfg0.N = 43 := N_0
  have h3 := q.isLt
  omega

/-! ## The six operand blocks at an entry -/

/-- The token block is x itself. -/
theorem tokens_apply (c : Dev nD) (t : Fin cfg0.N) (p : Fin 64) (k : Fin 4096) :
    (iblk m c 0 t : Vec Ideal S64x4096 .f32) (ix2 p k)
      = (m ((c : Thread nD τ).loc main_arg0) : S64x4096.Idx → EReal) (ix2 p k) := by
  obtain ⟨e0, e1, -⟩ := blockIndex t
  unfold iblk
  rw [View.read_apply]
  show V m c main_arg0 _ = _
  rw [V_main_arg0]
  refine congrArg _ (funext fun a => Fin.ext ?_)
  match a with
  | ⟨0, _⟩ => show win0_0.index t (0 : Fin 2) * 64 + 1 * p.val = p.val; rw [e0]; omega
  | ⟨1, _⟩ => show win0_0.index t (1 : Fin 2) * 4096 + 1 * k.val = k.val; rw [e1]; omega

/-- Row q of the weight block is row 256 t + q of W. -/
theorem weight_apply (c : Dev nD) (t : Fin cfg0.N) (q : Fin 256) (k : Fin 4096) :
    (iblk m c 1 t : Vec Ideal S256x4096 .f32) (ix2 q k)
      = (m ((c : Thread nD τ).loc main_arg1) : S11008x4096.Idx → EReal) (ix2 ⟨256 * t.val + q.val, channel_lt t q⟩ k) := by
  obtain ⟨-, -, e0, e1, -⟩ := blockIndex t
  unfold iblk
  rw [View.read_apply]
  show V m c main_arg1 _ = _
  rw [V_main_arg1]
  refine congrArg _ (funext fun a => Fin.ext ?_)
  match a with
  | ⟨0, _⟩ => show win0_1.index t (0 : Fin 2) * 256 + 1 * q.val = 256 * t.val + q.val; rw [e0]; omega
  | ⟨1, _⟩ => show win0_1.index t (1 : Fin 2) * 4096 + 1 * k.val = k.val; rw [e1]; omega

/-- Entry (q, 0) of the scale block is the scale of channel 256 t + q. -/
theorem scale_apply (c : Dev nD) (t : Fin cfg0.N) (q : Fin 256) :
    (iblk m c 2 t : Vec Ideal S256x1 .f32) (ix2 q (0 : Fin 1))
      = (m ((c : Thread nD τ).loc main_arg2) : S11008.Idx → EReal) (ix1 ⟨256 * t.val + q.val, channel_lt t q⟩) := by
  obtain ⟨-, -, -, -, e0, e1, -⟩ := blockIndex t
  unfold iblk
  rw [View.read_apply]
  show V m c main_v0 _ = _
  rw [scaleColumn_eq]
  refine shapeCast_apply _ _ _ _ ?_
  show (S11008.rowMajor (ix1 ⟨256 * t.val + q.val, channel_lt t q⟩)).val
    = (S11008x1.rowMajor (((cfg0.win 2).blk t).view.emb (ix2 q (0 : Fin 1)))).val
  rw [Shape.rowMajor_val_one, Shape.rowMajor_val_two]
  show 256 * t.val + q.val = (win0_2.index t (0 : Fin 2) * 256 + 1 * q.val) * 1 + (win0_2.index t (1 : Fin 2) * 1 + 1 * 0)
  rw [e0, e1]; omega

/-- The block of the low-rank factor A is A itself. -/
theorem lowRankA_apply (c : Dev nD) (t : Fin cfg0.N) (r : Fin 16) (k : Fin 4096) :
    (iblk m c 3 t : Vec Ideal S16x4096 .f32) (ix2 r k)
      = (m ((c : Thread nD τ).loc main_arg3) : S16x4096.Idx → EReal) (ix2 r k) := by
  obtain ⟨-, -, -, -, -, -, e0, e1, -⟩ := blockIndex t
  unfold iblk
  rw [View.read_apply]
  show V m c main_arg3 _ = _
  rw [V_main_arg3]
  refine congrArg _ (funext fun a => Fin.ext ?_)
  match a with
  | ⟨0, _⟩ => show win0_3.index t (0 : Fin 2) * 16 + 1 * r.val = r.val; rw [e0]; omega
  | ⟨1, _⟩ => show win0_3.index t (1 : Fin 2) * 4096 + 1 * k.val = k.val; rw [e1]; omega

/-- Row q of the block of the low-rank factor B is row 256 t + q of B. -/
theorem lowRankB_apply (c : Dev nD) (t : Fin cfg0.N) (q : Fin 256) (r : Fin 16) :
    (iblk m c 4 t : Vec Ideal S256x16 .f32) (ix2 q r)
      = (m ((c : Thread nD τ).loc main_arg4) : S11008x16.Idx → EReal) (ix2 ⟨256 * t.val + q.val, channel_lt t q⟩ r) := by
  obtain ⟨-, -, -, -, -, -, -, -, e0, e1, -⟩ := blockIndex t
  unfold iblk
  rw [View.read_apply]
  show V m c main_arg4 _ = _
  rw [V_main_arg4]
  refine congrArg _ (funext fun a => Fin.ext ?_)
  match a with
  | ⟨0, _⟩ => show win0_4.index t (0 : Fin 2) * 256 + 1 * q.val = 256 * t.val + q.val; rw [e0]; omega
  | ⟨1, _⟩ => show win0_4.index t (1 : Fin 2) * 16 + 1 * r.val = r.val; rw [e1]; omega

/-- Entry (q, 0) of the bias block is the bias of channel 256 t + q. -/
theorem bias_apply (c : Dev nD) (t : Fin cfg0.N) (q : Fin 256) :
    (iblk m c 5 t : Vec Ideal S256x1 .f32) (ix2 q (0 : Fin 1))
      = (m ((c : Thread nD τ).loc main_arg5) : S11008.Idx → EReal) (ix1 ⟨256 * t.val + q.val, channel_lt t q⟩) := by
  obtain ⟨-, -, -, -, -, -, -, -, -, -, e0, e1, -⟩ := blockIndex t
  unfold iblk
  rw [View.read_apply]
  show V m c main_v1 _ = _
  rw [biasColumn_eq]
  refine shapeCast_apply _ _ _ _ ?_
  show (S11008.rowMajor (ix1 ⟨256 * t.val + q.val, channel_lt t q⟩)).val
    = (S11008x1.rowMajor (((cfg0.win 5).blk t).view.emb (ix2 q (0 : Fin 1)))).val
  rw [Shape.rowMajor_val_one, Shape.rowMajor_val_two]
  show 256 * t.val + q.val = (win0_5.index t (0 : Fin 2) * 256 + 1 * q.val) * 1 + (win0_5.index t (1 : Fin 2) * 1 + 1 * 0)
  rw [e0, e1]; omega

/-! ## The result block -/

/-- Entry (p, q) of the block step t writes back is entry (p, 256 t + q) of the result. -/
theorem result_emb (t : Fin cfg0.N) (p : Fin 64) (q : Fin 256) :
    ((cfg0.win 6).blk t).view.emb (ix2 p q) = (ix2 p ⟨256 * t.val + q.val, channel_lt t q⟩ : S64x11008.Idx) := by
  obtain ⟨-, -, -, -, -, -, -, -, -, -, -, -, e0, e1⟩ := blockIndex t
  refine funext fun a => Fin.ext ?_
  match a with
  | ⟨0, _⟩ => show win0_6.index t (0 : Fin 2) * 64 + 1 * p.val = p.val; rw [e0]; omega
  | ⟨1, _⟩ => show win0_6.index t (1 : Fin 2) * 256 + 1 * q.val = 256 * t.val + q.val; rw [e1]; omega

end Cert.QLinear.Blocks

end
-- ==== Proof.LinearSpec.lean ====
/-
  The function both programs compute, over the extended reals, stated once and index by index.

  With x : [64, 4096] (tokens), W : [11008, 4096] (stored weight), s : [11008] (one scale per output channel),
  A : [16, 4096] and B : [11008, 16] (the low-rank pair), b : [11008] (bias) and the constant c = 1.0 (alpha / rank),
  the effective weight is  E[n, k] = W[n, k] * s[n] + (sum over r of B[n, r] * A[r, k]) * c  and the layer's output is
  out[t, n] = (sum over k of x[t, k] * E[n, k]) + b[n].
  No law of the extended reals beyond the terms' own shape is used to join the two programs to this function: both
  compute exactly these sums and products, in this association.
-/
import Idealize.ShloMosaic.PureOps.Ideal
import Idealize.ShloMosaic.Lib.ValueIdx

noncomputable section

open scoped BigOperators

namespace Cert.QLinear

open Idealize.ShloMosaic Idealize.ShloMosaic.ValueIdx

/-- The scale alpha / rank = 16 / 16, which both programs spell as the f32 word of 1.0. -/
abbrev loraScale : EReal := Ideal.ofBits .f32 0x3F800000#32

/-- One entry of the effective weight: the stored weight scaled per output channel, plus the low-rank product scaled. -/
def effWeight (W : FVec Ideal ⟨2, ![11008, 4096]⟩ .f32) (s : FVec Ideal ⟨1, ![11008]⟩ .f32)
    (A : FVec Ideal ⟨2, ![16, 4096]⟩ .f32) (B : FVec Ideal ⟨2, ![11008, 16]⟩ .f32) (n : Fin 11008) (k : Fin 4096) : EReal :=
  W (ix2 n k) * s (ix1 n) + (∑ r : Fin 16, B (ix2 n r) * A (ix2 r k)) * loraScale

/-- The layer's output: each token's row against each output channel's effective weight row, plus that channel's bias. -/
def linearOut (x : FVec Ideal ⟨2, ![64, 4096]⟩ .f32) (W : FVec Ideal ⟨2, ![11008, 4096]⟩ .f32) (s : FVec Ideal ⟨1, ![11008]⟩ .f32)
    (A : FVec Ideal ⟨2, ![16, 4096]⟩ .f32) (B : FVec Ideal ⟨2, ![11008, 16]⟩ .f32) (b : FVec Ideal ⟨1, ![11008]⟩ .f32) :
    FVec Ideal ⟨2, ![64, 11008]⟩ .f32 := fun i =>
  (∑ k : Fin 4096, x (ix2 (i 0) k) * effWeight W s A B (i 1) k) + b (ix1 (i 1))

end Cert.QLinear

end
-- ==== Proof.BodyValue.lean ====
/-
  What one grid step of the kernel stores, read at an index.

  At a step the body holds a block of 256 output channels: the stored-weight rows `w` : [256, 4096], their scales
  `sc` : [256, 1], the low-rank rows `lb` : [256, 16], their bias `bi` : [256, 1], and the whole of `x` : [64, 4096] and
  `la` : [16, 4096]. It forms the block of the effective weight  w[j, k] * sc[j, 0] + (sum over r of lb[j, r] * la[r, k]) * 1.0,
  contracts x against its transpose over k, and adds the bias laid along the tokens. Over the extended reals a change of
  float format is the identity and a matrix product into a zero accumulator is the plain sum of products over the
  contracted coordinate, so the stored value at (t, j) is
  (sum over k of x[t, k] * (w[j, k] * sc[j, 0] + (sum over r of lb[j, r] * la[r, k]) * 1.0)) + bi[j, 0].
-/
import proofs.«150918_j74388833567052_1_alg».proof.Proof.Gen.KernelIdeal.Skeleton
import proofs.«150918_j74388833567052_1_alg».proof.Proof.LinearSpec
import Idealize.ShloMosaic.Lib.Pipeline.Value
import Idealize.ShloMosaic.Lib.ValueIdx
import Idealize.ShloMosaic.PureOps.Ideal.Laws

noncomputable section

open scoped BigOperators

namespace Cert.QLinear.Body

open Cert.KernelIdeal Cert.KernelIdeal.Gen Idealize.ShloMosaic Idealize.ShloMosaic.ValueIdx Cert.QLinear

/-! ## The low-rank product  lb · la  : [256, 16] × [16, 4096], one contracted axis -/

theorem lowrank_lhs_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem lowrank_lhs_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
theorem lowrank_rhs_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
theorem lowrank_rhs_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- The low-rank product into a zero accumulator, at (j, k): the sum over the rank coordinate. -/
theorem lowrank_apply (lb : FVec Ideal S256x16 .f32) (la : FVec Ideal S16x4096 .f32) (j : Fin 256) (k : Fin 4096) :
    matmul (F := Ideal) dot_S256x16_S16x4096_S256x4096_1_0_0_1_n_n none lb la (constant (F := Ideal) S256x4096 .f32 0x00000000#32) (ix2 j k)
      = ∑ r : Fin 16, lb (ix2 j r) * la (ix2 r k) := by
  simp only [matmul]
  rw [Ideal.matmul_constant_zero_apply, ← Equiv.sum_comp (contrEquiv1 dot_S256x16_S16x4096_S256x4096_1_0_0_1_n_n 16 rfl rfl).symm]
  refine Finset.sum_congr rfl fun r _ => ?_
  have hr := contrEquiv1_symm_val dot_S256x16_S16x4096_S256x4096_1_0_0_1_n_n 16 rfl rfl r
  have el : dot_S256x16_S16x4096_S256x4096_1_0_0_1_n_n.lhsIdx (ix2 j k) ((contrEquiv1 dot_S256x16_S16x4096_S256x4096_1_0_0_1_n_n 16 rfl rfl).symm r) = ix2 j r := funext fun a => Fin.ext (by
    match a with
    | ⟨0, _⟩ => exact lowrank_lhs_0 _ _
    | ⟨1, _⟩ => exact (lowrank_lhs_1 _ _).trans hr)
  have er : dot_S256x16_S16x4096_S256x4096_1_0_0_1_n_n.rhsIdx (ix2 j k) ((contrEquiv1 dot_S256x16_S16x4096_S256x4096_1_0_0_1_n_n 16 rfl rfl).symm r) = ix2 r k := funext fun a => Fin.ext (by
    match a with
    | ⟨0, _⟩ => exact (lowrank_rhs_0 _ _).trans hr
    | ⟨1, _⟩ => exact lowrank_rhs_1 _ _)
  rw [el, er]

/-! ## The block of the effective weight -/

/-- The block of the effective weight the body forms from its loads (before the change of format, which is the identity). -/
def effBlock {F : FTy → Type} [FloatOps F] (w : Vec F S256x4096 .f32) (sc : Vec F S256x1 .f32) (lb : Vec F S256x16 .f32) (la : Vec F S16x4096 .f32) :
    FVec F S256x4096 .f32 :=
  addf (mulf w (broadcastTo S256x4096 (shapeCast S256x1 sc shapeCasts_S256x1_S256x1) broadcasts_S256x1_S256x4096))
    (mulf (matmul dot_S256x16_S16x4096_S256x4096_1_0_0_1_n_n none lb la (constant S256x4096 .f32 0x00000000#32)) (broadcast S256x4096 (Scalar.ofBits .f32 0x3F800000#32)))

/-- Its entry at (j, k): the weight scaled by its row's scale, plus the low-rank sum times the constant. -/
theorem effBlock_apply (w : Vec Ideal S256x4096 .f32) (sc : Vec Ideal S256x1 .f32) (lb : Vec Ideal S256x16 .f32) (la : Vec Ideal S16x4096 .f32)
    (j : Fin 256) (k : Fin 4096) :
    effBlock (F := Ideal) w sc lb la (ix2 j k)
      = w (ix2 j k) * sc (ix2 j (0 : Fin 1)) + (∑ r : Fin 16, lb (ix2 j r) * la (ix2 r k)) * loraScale := by
  unfold effBlock
  rw [addf_apply, mulf_apply, mulf_apply, lowrank_apply, broadcast_apply,
    broadcastTo_apply _ broadcasts_S256x1_S256x4096 (ix2 j k) (ix2 j (0 : Fin 1)) (fun a => by
      match a with
      | ⟨0, _⟩ => show j.val = if (256 : Nat) = 1 then 0 else j.val; rw [if_neg (by decide)]
      | ⟨1, _⟩ => show 0 = if (1 : Nat) = 1 then 0 else k.val; rw [if_pos rfl]),
    shapeCast_self]
  rfl

/-! ## The main product  x · effᵀ  : [64, 4096] × [4096, 256], one contracted axis -/

theorem main_lhs_0 (i : S64x256.Idx) (q : dot_S64x4096_S4096x256_S64x256_1_0_0_1_n_n.contr.Idx) :
    (dot_S64x4096_S4096x256_S64x256_1_0_0_1_n_n.lhsIdx i q 0).val = (i 0).val := by
  unfold DotDims.lhsIdx
  rw [dif_neg (show ¬(0 : Fin S64x4096.rank) ∈ dot_S64x4096_S4096x256_S64x256_1_0_0_1_n_n.lhsBatch by decide), dif_pos (show (0 : Fin S64x4096.rank) ∈ dot_S64x4096_S4096x256_S64x256_1_0_0_1_n_n.lhsNonContracting by decide)]
  rfl
theorem main_lhs_1 (i : S64x256.Idx) (q : dot_S64x4096_S4096x256_S64x256_1_0_0_1_n_n.contr.Idx) :
    (dot_S64x4096_S4096x256_S64x256_1_0_0_1_n_n.lhsIdx i q 1).val = (q ⟨0, by decide⟩).val :=
  dot_S64x4096_S4096x256_S64x256_1_0_0_1_n_n.lhsIdx_val_of_single rfl i q
theorem main_rhs_0 (i : S64x256.Idx) (q : dot_S64x4096_S4096x256_S64x256_1_0_0_1_n_n.contr.Idx) :
    (dot_S64x4096_S4096x256_S64x256_1_0_0_1_n_n.rhsIdx i q 0).val = (q ⟨0, by decide⟩).val :=
  dot_S64x4096_S4096x256_S64x256_1_0_0_1_n_n.rhsIdx_val_of_single rfl i q
theorem main_rhs_1 (i : S64x256.Idx) (q : dot_S64x4096_S4096x256_S64x256_1_0_0_1_n_n.contr.Idx) :
    (dot_S64x4096_S4096x256_S64x256_1_0_0_1_n_n.rhsIdx i q 1).val = (i 1).val := by
  unfold DotDims.rhsIdx
  rw [dif_neg (show ¬(1 : Fin S4096x256.rank) ∈ dot_S64x4096_S4096x256_S64x256_1_0_0_1_n_n.rhsBatch by decide), dif_pos (show (1 : Fin S4096x256.rank) ∈ dot_S64x4096_S4096x256_S64x256_1_0_0_1_n_n.rhsNonContracting by decide)]
  rfl

/-- The main product into a zero accumulator, at (t, j): the sum over the feature coordinate. -/
theorem main_apply {φ₁ φ₂ : FTy} (l : FVec Ideal S64x4096 φ₁) (r : FVec Ideal S4096x256 φ₂) (t : Fin 64) (j : Fin 256) :
    matmul (F := Ideal) dot_S64x4096_S4096x256_S64x256_1_0_0_1_n_n none l r (constant (F := Ideal) S64x256 .f32 0x00000000#32) (ix2 t j)
      = ∑ k : Fin 4096, l (ix2 t k) * r (ix2 k j) := by
  simp only [matmul]
  rw [Ideal.matmul_constant_zero_apply, ← Equiv.sum_comp (contrEquiv1 dot_S64x4096_S4096x256_S64x256_1_0_0_1_n_n 4096 rfl rfl).symm]
  refine Finset.sum_congr rfl fun k _ => ?_
  have hk := contrEquiv1_symm_val dot_S64x4096_S4096x256_S64x256_1_0_0_1_n_n 4096 rfl rfl k
  have el : dot_S64x4096_S4096x256_S64x256_1_0_0_1_n_n.lhsIdx (ix2 t j) ((contrEquiv1 dot_S64x4096_S4096x256_S64x256_1_0_0_1_n_n 4096 rfl rfl).symm k) = ix2 t k := funext fun a => Fin.ext (by
    match a with
    | ⟨0, _⟩ => exact main_lhs_0 _ _
    | ⟨1, _⟩ => exact (main_lhs_1 _ _).trans hk)
  have er : dot_S64x4096_S4096x256_S64x256_1_0_0_1_n_n.rhsIdx (ix2 t j) ((contrEquiv1 dot_S64x4096_S4096x256_S64x256_1_0_0_1_n_n 4096 rfl rfl).symm k) = ix2 k j := funext fun a => Fin.ext (by
    match a with
    | ⟨0, _⟩ => exact (main_rhs_0 _ _).trans hk
    | ⟨1, _⟩ => exact main_rhs_1 _ _)
  rw [el, er]

/-! ## The stored value -/

/-- The body's one store, as the main product over the effective-weight block plus the bias laid along the tokens. -/
theorem pay_eq {F : FTy → Type} [FloatOps F] (w : Vec F S256x4096 .f32) (sc : Vec F S256x1 .f32) (lb : Vec F S256x16 .f32) (la : Vec F S16x4096 .f32)
    (x : Vec F S64x4096 .f32) (bi : Vec F S256x1 .f32) :
    k0_pay1 w sc lb la x bi
      = addf (matmul dot_S64x4096_S4096x256_S64x256_1_0_0_1_n_n none (truncf .bf16 x bitsLt_bf16_f32)
          (transpose S4096x256 [1, 0] (truncf .bf16 (effBlock w sc lb la) bitsLt_bf16_f32) transposes_S256x4096_p1_0_S4096x256)
          (constant S64x256 .f32 0x00000000#32))
        (broadcastTo S64x256 (transpose S1x256 [1, 0] (shapeCast S256x1 bi shapeCasts_S256x1_S256x1) transposes_S256x1_p1_0_S1x256) broadcasts_S1x256_S64x256) := rfl

/-- The stored value at (t, j). -/
theorem pay_apply (w : Vec Ideal S256x4096 .f32) (sc : Vec Ideal S256x1 .f32) (lb : Vec Ideal S256x16 .f32) (la : Vec Ideal S16x4096 .f32)
    (x : Vec Ideal S64x4096 .f32) (bi : Vec Ideal S256x1 .f32) (t : Fin 64) (j : Fin 256) :
    k0_pay1 (F := Ideal) w sc lb la x bi (ix2 t j)
      = (∑ k : Fin 4096, x (ix2 t k) * (w (ix2 j k) * sc (ix2 j (0 : Fin 1)) + (∑ r : Fin 16, lb (ix2 j r) * la (ix2 r k)) * loraScale))
        + bi (ix2 j (0 : Fin 1)) := by
  rw [pay_eq, addf_apply, main_apply,
    broadcastTo_apply _ broadcasts_S1x256_S64x256 (ix2 t j) (ix2 (0 : Fin 1) j) (fun a => by
      match a with
      | ⟨0, _⟩ => show 0 = if (1 : Nat) = 1 then 0 else t.val; rw [if_pos rfl]
      | ⟨1, _⟩ => show j.val = if (256 : Nat) = 1 then 0 else j.val; rw [if_neg (by decide)]),
    transpose_apply [1, 0] _ transposes_S256x1_p1_0_S1x256 (ix2 (0 : Fin 1) j) (ix2 j (0 : Fin 1)) (fun b => by
      match b with
      | ⟨0, _⟩ => rfl
      | ⟨1, _⟩ => rfl),
    shapeCast_self]
  congr 1
  refine Finset.sum_congr rfl fun k _ => ?_
  rw [truncf_apply, transpose_apply [1, 0] _ transposes_S256x4096_p1_0_S4096x256 (ix2 k j) (ix2 j k) (fun b => by
      match b with
      | ⟨0, _⟩ => rfl
      | ⟨1, _⟩ => rfl),
    truncf_apply, effBlock_apply]

end Cert.QLinear.Body

end
-- ==== Proof.KernelValue.lean ====
/-
  The kernel computes `linearOut`.

  Step t stores, at (p, q) of its result block, the body's value on its operand blocks; with each block read as entries of
  the arguments that value is (sum over k of x[p, k] * E[256 t + q, k]) + b[256 t + q], which is `linearOut` at
  (p, 256 t + q): what step t writes back is its block of `linearOut`. Every column n of the result belongs to exactly the
  step n / 256, so the 43 blocks cover the array, and after the last step the array is `linearOut` of the arguments.
-/
import proofs.«150918_j74388833567052_1_alg».proof.Proof.Gen.KernelIdeal.Value
import proofs.«150918_j74388833567052_1_alg».proof.Proof.BlockReads
import proofs.«150918_j74388833567052_1_alg».proof.Proof.BodyValue

noncomputable section

namespace Cert.QLinear.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.QLinear Cert.QLinear.Body Cert.QLinear.Blocks

variable (m : (ℓ : Loc nD τ sig) → Buf (Elt Ideal) ℓ) (ρ : Dev nD → PrngReg)

/-- `linearOut` of the six arguments as core `c` is launched with them. -/
abbrev layerOut (c : Dev nD) : FVec Ideal ⟨2, ![64, 11008]⟩ .f32 :=
  linearOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem zeroOffsets : (![0, 0] : Fin 2 → Nat) = fun _ => 0 := funext fun a => by fin_cases a <;> rfl

/-- What step t writes back is its block of `linearOut`. -/
theorem writtenBack_eq (c : Dev nD) (t : Fin cfg0.N) :
    (dats m 0 c).flushed 6 t = ((cfg0.win 6).blk t).view.read (Elt Ideal) (layerOut m c) := by
  rw [Cert.KernelIdeal.Value.flushed6]
  unfold out0_6
  rw [View.canon_unit_zero zeroOffsets]
  simp only [View.ld_unit_zero (S := S256x4096) zeroOffsets, View.ld_unit_zero (S := S256x1) zeroOffsets,
    View.ld_unit_zero (S := S256x16) zeroOffsets, View.ld_unit_zero (S := S16x4096) zeroOffsets,
    View.ld_unit_zero (S := S64x4096) zeroOffsets]
  funext y
  obtain ⟨p, q, rfl⟩ : ∃ (p : Fin 64) (q : Fin 256), y = ix2 p q := ⟨y 0, y 1, eq_ix2 y⟩
  rw [View.read_apply]
  show k0_pay1 (F := Ideal) (iblk m c 1 t) (iblk m c 2 t) (iblk m c 4 t) (iblk m c 3 t) (iblk m c 0 t) (iblk m c 5 t) (ix2 p q)
    = layerOut m c (((cfg0.win 6).blk t).view.emb (ix2 p q))
  rw [result_emb t p q]
  refine (pay_apply (iblk m c 1 t) (iblk m c 2 t) (iblk m c 4 t) (iblk m c 3 t) (iblk m c 0 t) (iblk m c 5 t) p q).trans ?_
  rw [scale_apply m c t q, bias_apply m c t q]
  simp only [tokens_apply m c t, weight_apply m c t q, lowRankA_apply m c t, lowRankB_apply m c t q]
  rfl

/-- Every index of the result lies in the block of the step that owns its column's group of 256. -/
theorem covered (i : S64x11008.Idx) :
    ∃ t : Fin cfg0.N, (cfg0.win 6).flush t = true ∧ i ∈ ((cfg0.win 6).blk t).view.set := by
  have h0 : (i 0).val < 64 := (i 0).isLt
  have h1 : (i 1).val < 11008 := (i 1).isLt
  have hN : cfg0.N = 43 := N_0
  let t : Fin cfg0.N := ⟨(i 1).val / 256, by rw [hN]; omega⟩
  obtain ⟨-, -, -, -, -, -, -, -, -, -, -, -, e0, e1⟩ := blockIndex t
  refine ⟨t, flush0_6 t, ?_⟩
  show i ∈ ((View.whole main_v2).slice (win0_6.rect t)).set
  rw [View.set_slice_whole, Rect.mem_set_unit]
  intro a
  match a with
  | ⟨0, _⟩ =>
    show win0_6.index t (0 : Fin 2) * 64 ≤ (i 0).val ∧ (i 0).val < win0_6.index t (0 : Fin 2) * 64 + 64
    rw [e0]; omega
  | ⟨1, _⟩ =>
    show win0_6.index t (1 : Fin 2) * 256 ≤ (i 1).val ∧ (i 1).val < win0_6.index t (1 : Fin 2) * 256 + 256
    rw [e1]
    show (i 1).val / 256 * 256 ≤ (i 1).val ∧ (i 1).val < (i 1).val / 256 * 256 + 256
    omega

/-- After the last step the result array is `linearOut` of the arguments. -/
theorem resultArray_eq (c : Dev nD) : (dats m 0 c).arrAt 6 cfg0.N = layerOut m c :=
  (dats m 0 c).arrAt_eq_of_cover 6 _ (fun t _ => writtenBack_eq m c t) covered

/-- Every execution of the idealized kernel ends with the result at `linearOut` of the arguments and the arguments unchanged. -/
theorem run : θ_run defs (onTc (τ := τ) (main (F := Ideal))) ⟨m, fun _ => 0, ρ⟩ fun r => ∀ c : Dev nD,
      r.2.mem ((c : Thread nD τ).loc main_v2) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (resultArray_eq m c), (h c).2⟩)
    (Cert.KernelIdeal.Value.run_blocks m ρ)

end Cert.QLinear.Kernel

end
-- ==== Proof.RefValue.lean ====
/-
  The reference program computes `linearOut`.

  Read one operation at a time, the reference forms the scaled weight W[n, k] * s[n] (the scale broadcast along k), the
  low-rank product (sum over r of B[n, r] * A[r, k]) times the constant 1.0, their sum, its transpose, the contraction of
  x against that transpose over k, and adds the bias broadcast along the tokens. At an index (t, n) that is exactly
  (sum over k of x[t, k] * E[n, k]) + b[n]: the transposition only renames the index (k, n) of the transposed array as
  (n, k) of the effective weight, and each broadcast reads its operand at the coordinates it keeps.
-/
import proofs.«150918_j74388833567052_1_alg».proof.Proof.Gen.ReferenceIdeal.Read
import proofs.«150918_j74388833567052_1_alg».proof.Proof.LinearSpec

noncomputable section

open scoped BigOperators

namespace Cert.QLinear.Ref

open Cert.ReferenceIdeal Cert.ReferenceIdeal.Read Idealize.ShloMosaic Idealize.ShloMosaic.ValueIdx Cert.QLinear

/-- The reference's effective-weight array (scaled weight plus scaled low-rank product) at (n, k). -/
theorem effective_apply (x1 : FVec Ideal S11008x4096 .f32) (x2 : FVec Ideal S11008 .f32) (x3 : FVec Ideal S16x4096 .f32)
    (x4 : FVec Ideal S11008x16 .f32) (n : Fin 11008) (k : Fin 4096) :
    val_main_v6 (F := Ideal) x1 x2 x3 x4 (ix2 n k) = effWeight x1 x2 x3 x4 n k := by
  rw [val_main_v6_apply, val_main_v2_apply, val_main_v1_apply, val_main_v0_apply, val_main_v5_apply, val_main_v3_apply,
    val_main_v4_apply, val_main_cst_apply]
  have es : idx_main_v0 (idx_main_v1 (ix2 n k)) = ix1 n := funext fun a => Fin.ext (by match a with | ⟨0, _⟩ => rfl)
  have el : ∀ r : Fin 16, lidx_main_v3 (ix2 n k) r = ix2 n r := fun r => funext fun a => Fin.ext (by
    match a with | ⟨0, _⟩ => rfl | ⟨1, _⟩ => rfl)
  have er : ∀ r : Fin 16, ridx_main_v3 (ix2 n k) r = ix2 r k := fun r => funext fun a => Fin.ext (by
    match a with | ⟨0, _⟩ => rfl | ⟨1, _⟩ => rfl)
  simp only [es, el, er]
  rfl

/-- The reference's result, as one function of its six arguments, is `linearOut`. -/
theorem result_eq (x0 : FVec Ideal S64x4096 .f32) (x1 : FVec Ideal S11008x4096 .f32) (x2 : FVec Ideal S11008 .f32)
    (x3 : FVec Ideal S16x4096 .f32) (x4 : FVec Ideal S11008x16 .f32) (x5 : FVec Ideal S11008 .f32) :
    val_main_v11 (F := Ideal) x0 x1 x2 x3 x4 x5 = linearOut x0 x1 x2 x3 x4 x5 := by
  funext i
  obtain ⟨t, n, rfl⟩ : ∃ (t : Fin 64) (n : Fin 11008), i = ix2 t n := ⟨i 0, i 1, eq_ix2 i⟩
  rw [val_main_v11_apply, val_main_v8_apply, val_main_v10_apply, val_main_v9_apply]
  have eb : idx_main_v9 (idx_main_v10 (ix2 t n)) = ix1 n := funext fun a => Fin.ext (by match a with | ⟨0, _⟩ => rfl)
  have hterm : ∀ k : Fin 4096,
      x0 (lidx_main_v8 (ix2 t n) k) * val_main_v7 (F := Ideal) x1 x2 x3 x4 (ridx_main_v8 (ix2 t n) k)
        = x0 (ix2 t k) * effWeight x1 x2 x3 x4 n k := by
    intro k
    have ex : lidx_main_v8 (ix2 t n) k = ix2 t k := funext fun a => Fin.ext (by
      match a with | ⟨0, _⟩ => rfl | ⟨1, _⟩ => rfl)
    have et : idx_main_v7 (ridx_main_v8 (ix2 t n) k) = ix2 n k := funext fun a => Fin.ext (by
      match a with | ⟨0, _⟩ => rfl | ⟨1, _⟩ => rfl)
    rw [val_main_v7_apply, ex, et, effective_apply]
  rw [eb, Finset.sum_congr rfl fun k _ => hterm k]
  rfl

end Cert.QLinear.Ref

end
-- ==== Proof.lean ====
/-
  A linear layer with a per-channel-scaled stored weight and a low-rank correction: the tiled kernel against the plain
  reference, over the extended reals.

  Both programs compute  out[t, n] = (sum over k of x[t, k] * (W[n, k] * s[n] + (sum over r of B[n, r] * A[r, k]) * 1.0)) + b[n]
  (`Cert.QLinear.linearOut`). The reference does so on whole arrays, transposing the effective weight before one
  contraction; the kernel does so 256 output channels at a time over 43 grid steps, each step forming its rows of the
  effective weight, contracting x against their transpose and adding its slice of the bias. Over the extended reals a
  change of float format is the identity and a matrix product into a zero accumulator is the sum of products over the
  contracted coordinate, so the two are the same sums of the same products, and no finiteness of the inputs is needed:
  the precondition is never opened.
  The three frames: the two kernels' by their generated frame certificates, the reference's by its run with the result
  dropped. The idealization rewrote nothing, so its conjunct is trivially true.
-/
import proofs.«150918_j74388833567052_1_alg».proof.Defs
import proofs.«150918_j74388833567052_1_alg».proof.Proof.Gen.Kernel
import proofs.«150918_j74388833567052_1_alg».proof.Proof.Gen.Kernel.Skeleton
import proofs.«150918_j74388833567052_1_alg».proof.Proof.Gen.Kernel.Launch
import proofs.«150918_j74388833567052_1_alg».proof.Proof.Gen.Kernel.Points
import proofs.«150918_j74388833567052_1_alg».proof.Proof.Gen.Kernel.Frame
import proofs.«150918_j74388833567052_1_alg».proof.Proof.Gen.KernelIdeal
import proofs.«150918_j74388833567052_1_alg».proof.Proof.Gen.KernelIdeal.Skeleton
import proofs.«150918_j74388833567052_1_alg».proof.Proof.Gen.KernelIdeal.Launch
import proofs.«150918_j74388833567052_1_alg».proof.Proof.Gen.KernelIdeal.Points
import proofs.«150918_j74388833567052_1_alg».proof.Proof.Gen.KernelIdeal.Frame
import proofs.«150918_j74388833567052_1_alg».proof.Proof.Gen.ReferenceIdeal
import proofs.«150918_j74388833567052_1_alg».proof.Proof.Gen.Pre_finite_inputs
import proofs.«150918_j74388833567052_1_alg».proof.Proof.Gen.KernelIdeal.Value
import proofs.«150918_j74388833567052_1_alg».proof.Proof.Gen.ReferenceIdeal.Run
import proofs.«150918_j74388833567052_1_alg».proof.Proof.Gen.ReferenceIdeal.Read
import proofs.«150918_j74388833567052_1_alg».proof.Proof.KernelValue
import proofs.«150918_j74388833567052_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the six arguments both idealized programs end with their result at `linearOut` of those
    arguments: the kernel block by block, the reference operation by operation. -/
theorem algebraic : Cert.algebraic_KernelIdeal_ReferenceIdeal := by
  intro m ρ m' ρ' _ hagree
  refine ⟨fun c => Cert.QLinear.Kernel.layerOut m c, Cert.QLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.QLinear.Ref.result_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
